-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128x128 .f32) (main_arg3 : FVec F S128 .f32) (main_arg4 : IVec S600000 32) (main_arg5 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 33
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Tile.lean ====
/-
  What the kernel body computes on one tile of 2000 nodes, read at an entry.

  The body loads a tile `x0` of the nodes' own features, the matching tile `x1` of their aggregated neighbour
  features, the two whole weight matrices `w0`, `w1` and the bias as a one-row block `b0`, and stores

      max ((x0 · w0 + x1 · w1) + b0) 0

  with each product taken into a zero accumulator. Over the extended reals the narrowing of the operands to
  bf16 is the identity and a product into a zero accumulator is the plain sum over the contracted axis, so at
  row `p` and column `q` of the tile the stored value is

      max ((Σₖ x0[p,k]·w0[k,q] + Σₖ x1[p,k]·w1[k,q]) + b0[0,q]) 0 :

  the layer's formula with the tile's rows in place of the nodes. The contraction index of the product is a
  one-axis multi-index; it is traded for its single coordinate `k : Fin 128`, and the operand indices the
  product reads at output entry `(p, q)` and that `k` are `(p, k)` on the left and `(k, q)` on the right.
-/
import proofs.«130006_j61220463837398_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The operand indices of the tile's matrix product -/

/-- The left operand is read in the output entry's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … at the contracted coordinate as its column; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand is read at the contracted coordinate as its row … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … in the output entry's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A tile times a weight matrix into a zero accumulator, at row `p` and column `q`: the sum over the 128 input
    features `k` of the tile's `(p, k)` entry times the matrix's `(k, q)` entry. -/
theorem product_apply {φ₁ φ₂ : FTy} (a : FVec Ideal S2000x128 φ₁) (w : FVec Ideal S128x128 φ₂) (p : Fin 2000) (q : Fin 128) :
    matmul dot_S2000x128_S128x128_S2000x128_1_0_0_1_n_n none a w (constant S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The bias row spread over the tile -/

/-- The one-row bias block broadcast to the tile's shape reads, at `(p, q)`, the row's entry `q`. -/
theorem bias_apply (b0 : Vec Ideal S1x128 .f32) (p : Fin 2000) (q : Fin 128) :
    broadcastTo S2000x128 (shapeCast S1x128 b0 shapeCasts_S1x128_S1x128) broadcasts_S1x128_S2000x128 (ix2 p q) = b0 (ix2 0 q) := by
  rw [shapeCast_self]
  exact broadcastTo_apply b0 broadcasts_S1x128_S2000x128 (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-! ## The stored tile at an entry -/

/-- The value the body stores, at row `p` and column `q` of the tile. -/
theorem stored_apply (x0 x1 : Vec Ideal S2000x128 .f32) (w0 w1 : Vec Ideal S128x128 .f32) (b0 : Vec Ideal S1x128 .f32) (p : Fin 2000) (q : Fin 128) :
    k0_pay1 (F := Ideal) x0 x1 w0 w1 b0 (ix2 p q)
      = max ((∑ k : Fin 128, x0 (ix2 p k) * w0 (ix2 k q) + ∑ k : Fin 128, x1 (ix2 p k) * w1 (ix2 k q)) + b0 (ix2 0 q))
          (Ideal.ofBits .f32 0x00000000#32) := by
  unfold k0_pay1
  rw [shapeCast_self]
  show max ((matmul (F := Ideal) dot_S2000x128_S128x128_S2000x128_1_0_0_1_n_n none (truncf .bf16 x0 bitsLt_bf16_f32) (truncf .bf16 w0 bitsLt_bf16_f32) (constant S2000x128 .f32 0x00000000#32) (ix2 p q)
      + matmul (F := Ideal) dot_S2000x128_S128x128_S2000x128_1_0_0_1_n_n none (truncf .bf16 x1 bitsLt_bf16_f32) (truncf .bf16 w1 bitsLt_bf16_f32) (constant S2000x128 .f32 0x00000000#32) (ix2 p q))
      + broadcastTo S2000x128 (shapeCast S1x128 b0 shapeCasts_S1x128_S1x128) broadcasts_S1x128_S2000x128 (ix2 p q))
      (Ideal.ofBits .f32 0x00000000#32) = _
  rw [product_apply, product_apply, bias_apply]
  rfl

end Cert.KernelIdeal.Tile

end
-- ==== Proof.Layer.lean ====
/-
  One graph-convolution layer with the mean aggregator, as ONE function of whole arrays over the extended reals.

  For a node `p` and an output feature `q`,

      layer x h Ws Wn b (p, q) = max ((Σₖ x[p,k]·Ws[k,q] + Σₖ h[p,k]·Wn[k,q]) + b[q]) 0,

  where `x` holds the nodes' own features, `h` the features aggregated over each node's in-neighbours (here any
  array of the same shape: the layer does not care how it was aggregated), `Ws` and `Wn` the two weight
  matrices and `b` the bias. The three summands are grouped, and the rectifier's zero is spelt, exactly as both
  programs have them: sums of extended reals may be regrouped only with care at the infinities, and stated this
  way neither side needs any law of arithmetic to reach this form — only the reading of a matrix product as a
  sum over the contracted axis.
-/
import Idealize.ShloMosaic.PureOps.Ideal
import Idealize.ShloMosaic.Lib.ValueIdx

noncomputable section

namespace Cert.Sage

open Idealize.ShloMosaic Idealize.ShloMosaic.ValueIdx

/-- Node features: 50000 nodes with 128 features each. -/
abbrev Nodes : Shape := ⟨2, ![50000, 128]⟩
/-- A weight matrix: 128 input features by 128 output features. -/
abbrev Weights : Shape := ⟨2, ![128, 128]⟩
/-- The bias: one entry per output feature. -/
abbrev Bias : Shape := ⟨1, ![128]⟩

/-- The layer's value at node `p` and output feature `q`: the node's own features through `ws`, plus its aggregated
    neighbour features through `wn`, plus the bias, rectified. -/
def layerAt (x h : Nodes.Idx → EReal) (ws wn : Weights.Idx → EReal) (b : Bias.Idx → EReal) (p : Fin 50000) (q : Fin 128) : EReal :=
  max ((∑ k : Fin 128, x (ix2 p k) * ws (ix2 k q) + ∑ k : Fin 128, h (ix2 p k) * wn (ix2 k q)) + b (ix1 q))
    (Ideal.ofBits .f32 0x00000000#32)

/-- The layer as a whole array: entry `i` is `layerAt` at `i`'s two coordinates. -/
def layer (x h : Nodes.Idx → EReal) (ws wn : Weights.Idx → EReal) (b : Bias.Idx → EReal) : Nodes.Idx → EReal :=
  fun i => layerAt x h ws wn b (i 0) (i 1)

theorem layer_apply (x h : Nodes.Idx → EReal) (ws wn : Weights.Idx → EReal) (b : Bias.Idx → EReal) (p : Fin 50000) (q : Fin 128) :
    layer x h ws wn b (ix2 p q) = layerAt x h ws wn b p q := rfl

end Cert.Sage

end
-- ==== Proof.Blocks.lean ====
/-
  From tiles to the whole array.

  The region walks the 50000 nodes in 25 tiles of 2000. At grid point `t` the pipeline hands the body rows
  `2000·t … 2000·t + 1999` of the nodes' own features and of their aggregated neighbour features, the two weight
  matrices and the bias row whole (their blocks do not move), and writes the body's tile back to the same rows of
  the output. By the tile's formula (`Tile.stored_apply`) row `p` of that tile is the layer at node `2000·t + p`: so
  what point `t` writes back is block `t` of ONE array, the layer of the arrays the region finds. Every node lies
  in exactly the tile `node / 2000`, so the 25 blocks cover the output array, which therefore ends holding the
  layer everywhere.
-/
import proofs.«130006_j61220463837398_1_alg».proof.Proof.Gen.KernelIdeal.Value
import proofs.«130006_j61220463837398_1_alg».proof.Proof.Tile
import proofs.«130006_j61220463837398_1_alg».proof.Proof.Layer

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The bias as a vector, from the one-row array the region stages. -/
abbrev biasOfRow (row : S1x128.Idx → EReal) : Bias.Idx → EReal := fun d => row (ix2 0 (d 0))

/-- The layer of the arrays as the region finds them: what the output array will end holding. -/
def whole (c : Dev nD) : S50000x128.Idx → EReal :=
  layer (V m c main_arg0) (V m c main_v18) (V m c main_arg1) (V m c main_arg2) (biasOfRow (V m c main_v19))

/-! ## Where each grid point's blocks lie -/

/-- The block indices over the grid: the two node-feature inputs move with the output, tile `t` at block row `t`;
    the weights and the bias row stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := lt_of_lt_of_eq t.isLt N_0

/-- The node in row `p` of tile `t`. -/
def nodeOf (t : Fin cfg0.N) (p : Fin 2000) : Fin 50000 :=
  ⟨t.val * 2000 + p.val, by have := point_lt t; have := p.isLt; omega⟩

/-- Row `p` of the own-features tile at point `t` is row `nodeOf t p` of the array. -/
theorem own_block (c : Dev nD) (t : Fin cfg0.N) (p : Fin 2000) (k : Fin 128) :
    iblk m c 0 t (ix2 p k) = V m c main_arg0 (ix2 (nodeOf t p) k) := by
  obtain ⟨a0, a1, -⟩ := index_facts t
  show V m c main_arg0 (((cfg0.win 0).blk t).view.emb (ix2 p k)) = _
  refine congrArg (V m c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The same for the aggregated neighbour features. -/
theorem neigh_block (c : Dev nD) (t : Fin cfg0.N) (p : Fin 2000) (k : Fin 128) :
    iblk m c 1 t (ix2 p k) = V m c main_v18 (ix2 (nodeOf t p) k) := by
  obtain ⟨-, -, a0, a1, -⟩ := index_facts t
  show V m c main_v18 (((cfg0.win 1).blk t).view.emb (ix2 p k)) = _
  refine congrArg (V m c main_v18) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- The weight blocks are the weight matrices whole, at every point. -/
theorem self_weights_block (c : Dev nD) (t : Fin cfg0.N) (y : S128x128.Idx) : iblk m c 2 t y = V m c main_arg1 y := by
  obtain ⟨-, -, -, -, a0, a1, -⟩ := index_facts t
  show V m c main_arg1 (((cfg0.win 2).blk t).view.emb y) = _
  refine congrArg (V m c main_arg1) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem neigh_weights_block (c : Dev nD) (t : Fin cfg0.N) (y : S128x128.Idx) : iblk m c 3 t y = V m c main_arg2 y := by
  obtain ⟨-, -, -, -, -, -, a0, a1, -⟩ := index_facts t
  show V m c main_arg2 (((cfg0.win 3).blk t).view.emb y) = _
  refine congrArg (V m c main_arg2) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- So is the bias row. -/
theorem bias_block (c : Dev nD) (t : Fin cfg0.N) (y : S1x128.Idx) : iblk m c 4 t y = V m c main_v19 y := by
  obtain ⟨-, -, -, -, -, -, -, -, a0, a1, -⟩ := index_facts t
  show V m c main_v19 (((cfg0.win 4).blk t).view.emb y) = _
  refine congrArg (V m c main_v19) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Entry `(p, q)` of the output's block at point `t` is entry `(nodeOf t p, q)` of the array. -/
theorem out_block (G : S50000x128.Idx → EReal) (t : Fin cfg0.N) (p : Fin 2000) (q : Fin 128) :
    ((cfg0.win 5).blk t).view.read (Elt Ideal) G (ix2 p q) = G (ix2 (nodeOf t p) q) := by
  obtain ⟨-, -, -, -, -, -, -, -, -, -, a0, a1⟩ := index_facts t
  show G (((cfg0.win 5).blk t).view.emb (ix2 p q)) = _
  refine congrArg G (funext fun a => Fin.ext ?_)
  match a with
  | ⟨0, _⟩ => show win0_5.index t (0 : Fin 2) * 2000 + 1 * p.val = t.val * 2000 + p.val; omega
  | ⟨1, _⟩ => show win0_5.index t (1 : Fin 2) * 128 + 1 * q.val = q.val; omega

/-! ## What a point writes back -/

/-- The stored tile at `(p, q)`, over any arrays whose blocks the loaded values are: the layer at the tile's node. -/
theorem tile_entry (xa ha : S50000x128.Idx → EReal) (wsa wna : S128x128.Idx → EReal) (row : S1x128.Idx → EReal)
    (x0 x1 : Vec Ideal S2000x128 .f32) (w0 w1 : Vec Ideal S128x128 .f32) (b0 : Vec Ideal S1x128 .f32)
    (p : Fin 2000) (q : Fin 128) (r : Fin 50000)
    (hx : ∀ k : Fin 128, x0 (ix2 p k) = xa (ix2 r k)) (hh : ∀ k : Fin 128, x1 (ix2 p k) = ha (ix2 r k))
    (hw0 : ∀ y, w0 y = wsa y) (hw1 : ∀ y, w1 y = wna y) (hb : ∀ y, b0 y = row y) :
    k0_pay1 (F := Ideal) x0 x1 w0 w1 b0 (ix2 p q) = layer xa ha wsa wna (biasOfRow row) (ix2 r q) := by
  rw [Tile.stored_apply, layer_apply]
  unfold layerAt
  simp only [hx, hh, hw0, hw1, hb]

/-- Two functions on a tile agree when they agree at every row `p` and column `q`. -/
theorem tile_ext {α : Type} (f g : S2000x128.Idx → α) (h : ∀ (p : Fin 2000) (q : Fin 128), f (ix2 p q) = g (ix2 p q)) : f = g :=
  funext fun j => by rw [eq_ix2 j]; exact h (j 0) (j 1)

/-- WHAT POINT `t` WRITES BACK is block `t` of the layer of the arrays the region finds. -/
theorem flushed_eq (c : Dev nD) (t : Fin cfg0.N) :
    (dats m 0 c).flushed 5 t = ((cfg0.win 5).blk t).view.read (Elt Ideal) (whole m c) := by
  rw [Value.flushed5]
  unfold out0_5
  rw [View.canon_unit_zero origin]
  simp only [View.ld_unit_zero (S := S2000x128) origin, View.ld_unit_zero (S := S128x128) origin, View.ld_unit_zero (S := S1x128) origin]
  refine tile_ext _ _ fun p q => ?_
  refine Eq.trans ?_ (out_block (whole m c) t p q).symm
  exact tile_entry (V m c main_arg0) (V m c main_v18) (V m c main_arg1) (V m c main_arg2) (V m c main_v19)
    (iblk m c 0 t) (iblk m c 1 t) (iblk m c 2 t) (iblk m c 3 t) (iblk m c 4 t) p q (nodeOf t p)
    (own_block m c t p) (neigh_block m c t p) (self_weights_block m c t) (neigh_weights_block m c t) (bias_block m c t)

/-! ## The blocks cover the array -/

/-- An index of the array is in point `t`'s block iff each coordinate is in the block's range on its axis. -/
theorem mem_block (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Node `n` lies in tile `n / 2000`: every index of the output array is in some point's block. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 2000 < cfg0.N := by rw [show cfg0.N = 25 from N_0]; omega
  refine ⟨⟨(i 0).val / 2000, ht⟩, flush0_5 _, ?_⟩
  obtain ⟨-, -, -, -, -, -, -, -, -, -, a0, a1⟩ := index_facts ⟨(i 0).val / 2000, ht⟩
  rw [mem_block]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [a0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [a1]; omega

/-! ## The array after the run, and the run -/

/-- THE OUTPUT ARRAY after the run is the layer of the arrays the region finds. -/
theorem final (c : Dev nD) : (dats m 0 c).arrAt 5 cfg0.N = whole m c :=
  (dats m 0 c).arrAt_eq_of_cover 5 (whole m c) (fun t _ => flushed_eq m c t) covered

/-- The kernel's run with its result named: the layer of the arrays the region finds; the arguments unchanged. -/
theorem run : θ_run defs (onTc (τ := τ) (main (F := Ideal))) ⟨m, fun _ => 0, ρ⟩ fun r => ∀ c : Dev nD,
      r.2.mem ((c : Thread nD τ).loc main_v20) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.Staged.lean ====
/-
  The two arrays the region stages that the program's own host operations wrote before it.

  `h`, the mean of each node's in-neighbours' features, is computed on the host by the same sequence of
  operations in both programs: make negative source ids non-negative by adding the node count, gather the source
  rows, add them up per destination node, count the edges per destination node, and divide by the count, at
  least one. Read back as one composed term of the three arguments it depends on (the features and the two edge
  lists), the kernel program's array is literally the reference's stage for it; nothing about gathering or
  scattering needs to be known, only that both programs apply the same operations to the same arguments.

  The bias reaches the region as a one-row array, a reshape of the bias vector: its entry `(0, q)` is the
  vector's entry `q`, the two having the same row-major position.
-/
import proofs.«130006_j61220463837398_1_alg».proof.Proof.Gen.KernelIdeal.Frame
import proofs.«130006_j61220463837398_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The one-row array the region stages for the bias is the bias vector, reshaped. -/
theorem bias_row (c : Dev nD) :
    (V m c main_v19 : S1x128.Idx → EReal) = shapeCast S1x128 (m ((c : Thread nD τ).loc main_arg3)) shapeCasts_S128_S1x128 := by
  dsimp only [V, hostOps0]
  after_results
  rfl

/-- Its entry `(0, q)` is the vector's entry `q`. -/
theorem bias_row_apply (c : Dev nD) (q : Fin 128) :
    (V m c main_v19 : S1x128.Idx → EReal) (ix2 0 q) = m ((c : Thread nD τ).loc main_arg3) (ix1 q) := by
  rw [bias_row]
  exact shapeCast_apply (s := S128) (t := S1x128) _ shapeCasts_S128_S1x128 (ix2 0 q) (ix1 q) (by
    rw [Shape.rowMajor_val_one, Shape.rowMajor_val_two]
    show q.val = 0 * 128 + q.val
    omega)

set_option maxHeartbeats 2000000 in
/-- The aggregated neighbour features the region stages are the reference's own stage for them, of the same
    arguments: the two programs apply the same host operations in the same order. -/
theorem aggregate (c : Dev nD) :
    (V m c main_v18 : S50000x128.Idx → EReal)
      = Cert.ReferenceIdeal.Read.val_main_v18 (F := Ideal) (m ((c : Thread nD τ).loc main_arg0))
          (m ((c : Thread nD τ).loc main_arg4)) (m ((c : Thread nD τ).loc main_arg5)) := by
  dsimp only [V, hostOps0]
  after_results_simp
  rfl

end Cert.KernelIdeal.Staged

end
-- ==== Proof.KernelLayer.lean ====
/-
  The kernel program's result is the layer of its arguments.

  The region leaves in the output array the layer of the arrays it finds (`Blocks.final`). Of those, the nodes'
  own features and the two weight matrices are arguments no host operation touched; the aggregated neighbour
  features are the reference's own stage for them (`Staged.aggregate`); and the one-row bias array, read as a
  vector, is the bias argument (`Staged.bias_row_apply`). So the output is the same function of the six
  arguments that the reference's result is.
-/
import proofs.«130006_j61220463837398_1_alg».proof.Proof.Blocks
import proofs.«130006_j61220463837398_1_alg».proof.Proof.Staged

noncomputable section

namespace Cert.KernelIdeal.Layer

open Cert.KernelIdeal Cert.KernelIdeal.Gen Idealize.ShloMosaic Idealize.ShloMosaic.TcCoe Idealize.SL.Sem
open Idealize.ShloMosaic.ValueIdx Cert.Sage

variable (m : (ℓ : Loc nD τ sig) → Buf (Elt Ideal) ℓ) (ρ : Dev nD → PrngReg)

/-- The staged one-row bias, read as a vector, is the bias argument. -/
theorem bias_vector (c : Dev nD) : Blocks.biasOfRow (V m c main_v19) = m ((c : Thread nD τ).loc main_arg3) :=
  funext fun d => (Staged.bias_row_apply m c (d 0)).trans (congrArg (m ((c : Thread nD τ).loc main_arg3)) (eq_ix1 d).symm)

/-- The layer of the arrays the region finds is the layer of the launch arguments, the aggregate being the
    reference's stage of the features and the two edge lists. -/
theorem whole_eq (c : Dev nD) :
    Blocks.whole m c
      = layer (m ((c : Thread nD τ).loc main_arg0))
          (Cert.ReferenceIdeal.Read.val_main_v18 (F := Ideal) (m ((c : Thread nD τ).loc main_arg0))
            (m ((c : Thread nD τ).loc main_arg4)) (m ((c : Thread nD τ).loc main_arg5)))
          (m ((c : Thread nD τ).loc main_arg1)) (m ((c : Thread nD τ).loc main_arg2)) (m ((c : Thread nD τ).loc main_arg3)) := by
  unfold Blocks.whole
  rw [bias_vector, Staged.aggregate, V_main_arg0, V_main_arg1, V_main_arg2]

/-- The kernel's run with its result at the layer of the launch arguments; the arguments unchanged. -/
theorem run : θ_run defs (onTc (τ := τ) (main (F := Ideal))) ⟨m, fun _ => 0, ρ⟩ fun r => ∀ c : Dev nD,
      r.2.mem ((c : Thread nD τ).loc main_v20)
        = layer (m ((c : Thread nD τ).loc main_arg0))
            (Cert.ReferenceIdeal.Read.val_main_v18 (F := Ideal) (m ((c : Thread nD τ).loc main_arg0))
              (m ((c : Thread nD τ).loc main_arg4)) (m ((c : Thread nD τ).loc main_arg5)))
            (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (whole_eq m c), (h c).2⟩) (Blocks.run m ρ)

end Cert.KernelIdeal.Layer

end
-- ==== Proof.ReferenceLayer.lean ====
/-
  The reference program's result is the layer.

  The reference computes, on whole arrays, `relu ((x · Ws + h · Wn) + b)` with `h` the mean of each node's
  in-neighbours' features. Read at node `p` and output feature `q`, each matrix product is the sum over the 128
  input features `k` of the left array's `(p, k)` entry times the weight's `(k, q)` entry; the bias, first made a
  one-row array and then spread over all nodes, contributes its entry `q`; and the rectifier is the maximum with
  the zero word. That is `Cert.Sage.layer` of the arguments with the aggregate `h` left as the reference's own
  stage for it: how `h` is computed is not looked into here.
-/
import proofs.«130006_j61220463837398_1_alg».proof.Proof.Gen.ReferenceIdeal.Read
import proofs.«130006_j61220463837398_1_alg».proof.Proof.Layer

noncomputable section

namespace Cert.ReferenceIdeal.Layer

open Cert.ReferenceIdeal Cert.ReferenceIdeal.Read Idealize.ShloMosaic Idealize.ShloMosaic.ValueIdx Cert.Sage

/-- The first product reads its left operand at `(p, k)` … -/
theorem self_left (p : Fin 50000) (q : Fin 128) (k : Fin 128) : lidx_main_v19 (ix2 p q) k = ix2 p k :=
  funext fun a => by match a with | ⟨0, _⟩ => rfl | ⟨1, _⟩ => rfl
/-- … and its weight at `(k, q)`; -/
theorem self_right (p : Fin 50000) (q : Fin 128) (k : Fin 128) : ridx_main_v19 (ix2 p q) k = ix2 k q :=
  funext fun a => by match a with | ⟨0, _⟩ => rfl | ⟨1, _⟩ => rfl
/-- so does the second product, on the aggregated features. -/
theorem neigh_left (p : Fin 50000) (q : Fin 128) (k : Fin 128) : lidx_main_v20 (ix2 p q) k = ix2 p k :=
  funext fun a => by match a with | ⟨0, _⟩ => rfl | ⟨1, _⟩ => rfl
theorem neigh_right (p : Fin 50000) (q : Fin 128) (k : Fin 128) : ridx_main_v20 (ix2 p q) k = ix2 k q :=
  funext fun a => by match a with | ⟨0, _⟩ => rfl | ⟨1, _⟩ => rfl
/-- Through its two broadcasts the bias is read at the output feature. -/
theorem bias_index (p : Fin 50000) (q : Fin 128) : idx_main_v22 (idx_main_v23 (ix2 p q)) = ix1 q :=
  funext fun a => by match a with | ⟨0, _⟩ => rfl

/-- The reference's result array is the layer of its arguments and its own mean aggregate. -/
theorem result_eq (x0 : (⟨S50000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S600000, .i32⟩ : BufTy).Contents (Elt Ideal)) :
    val_main_v25 (F := Ideal) x0 x1 x2 x3 x4 x5 = layer x0 (val_main_v18 (F := Ideal) x0 x4 x5) x1 x2 x3 := by
  funext i
  obtain ⟨p, q, rfl⟩ : ∃ (p : Fin 50000) (q : Fin 128), i = ix2 p q := ⟨i 0, i 1, eq_ix2 i⟩
  rw [layer_apply, val_main_v25_apply, val_main_v24_apply, val_main_v21_apply, val_main_v19_apply, val_main_v20_apply,
    val_main_v23_apply, val_main_v22_apply, val_main_call0_v0_apply, val_main_call0_cst_apply]
  simp only [self_left, self_right, neigh_left, neigh_right, bias_index]
  rfl

end Cert.ReferenceIdeal.Layer

end
-- ==== Proof.lean ====
/-
  A graph-convolution layer with the mean aggregator: the kernel against its jnp reference, over the extended reals.

  Both programs first aggregate, on the host and by the same operations, the mean `h` of each node's
  in-neighbours' features. The kernel program then runs one region over 25 tiles of 2000 nodes, each tile
  storing `max ((x·Ws + h·Wn) + b) 0` with both products into zero accumulators; the reference computes the same
  expression on whole arrays with two `dot_general`s and a rectifier. Over the extended reals a change of float
  format is the identity and a matrix product is the sum over the contracted axis, so both results are ONE
  function of the six arguments, `Cert.Sage.layer` (Proof/Layer.lean), index by index:

    * Proof/Tile.lean — the body's stored tile at an entry is the layer's formula on the tile's rows;
    * Proof/Blocks.lean — tile `t` is rows `2000·t …` of the arrays, the tiles cover the output, so the region's output
      array ends holding the layer of the arrays the region finds;
    * Proof/Staged.lean — of those arrays, the aggregate is the reference's own stage for it (same host operations of
      the same arguments) and the one-row bias is the bias vector reshaped;
    * Proof/KernelLayer.lean — hence the kernel's result is the layer of the launch arguments;
    * Proof/ReferenceLayer.lean — and so is the reference's, stage by stage.

  No law of arithmetic joins the two sides (the summands are grouped alike in both), so the precondition that the
  inputs are finite is never opened. The three frames are the generated ones (the reference's is its run with the
  result dropped), and the idealization rewrote nothing, so `preserves` is trivial.
-/
import proofs.«130006_j61220463837398_1_alg».proof.Defs
import proofs.«130006_j61220463837398_1_alg».proof.Proof.Gen.Kernel
import proofs.«130006_j61220463837398_1_alg».proof.Proof.Gen.Kernel.Skeleton
import proofs.«130006_j61220463837398_1_alg».proof.Proof.Gen.Kernel.Launch
import proofs.«130006_j61220463837398_1_alg».proof.Proof.Gen.Kernel.Points
import proofs.«130006_j61220463837398_1_alg».proof.Proof.Gen.Kernel.Frame
import proofs.«130006_j61220463837398_1_alg».proof.Proof.Gen.KernelIdeal
import proofs.«130006_j61220463837398_1_alg».proof.Proof.Gen.KernelIdeal.Skeleton
import proofs.«130006_j61220463837398_1_alg».proof.Proof.Gen.KernelIdeal.Launch
import proofs.«130006_j61220463837398_1_alg».proof.Proof.Gen.KernelIdeal.Points
import proofs.«130006_j61220463837398_1_alg».proof.Proof.Gen.KernelIdeal.Frame
import proofs.«130006_j61220463837398_1_alg».proof.Proof.Gen.ReferenceIdeal
import proofs.«130006_j61220463837398_1_alg».proof.Proof.Gen.Pre_finite_inputs
import proofs.«130006_j61220463837398_1_alg».proof.Proof.Gen.KernelIdeal.Value
import proofs.«130006_j61220463837398_1_alg».proof.Proof.Gen.ReferenceIdeal.Run
import proofs.«130006_j61220463837398_1_alg».proof.Proof.Gen.ReferenceIdeal.Read
import proofs.«130006_j61220463837398_1_alg».proof.Proof.KernelLayer
import proofs.«130006_j61220463837398_1_alg».proof.Proof.ReferenceLayer
import Idealize.ShloMosaic.Adequacy
import Idealize.ShloMosaic.Init

noncomputable section

namespace Cert.Proof

open Idealize.ShloMosaic Idealize.ShloMosaic.TcCoe Idealize.SL.Sem Cert.Sage

/-- The word-level kernel runs and leaves its arguments as they were: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the layer of those arguments: the kernel's
    output array by `KernelLayer.run`, the reference's result by its run read stage by stage
    (`ReferenceLayer.result_eq`), at the kernel's arguments by the agreement. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Layer.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
